-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x2048 : Shape := ⟨3, ![16, 2048, 2048]⟩
abbrev S_ : Shape := ⟨0, ![]⟩

class Facts : Prop where
  bcast_S_S16x2048x2048 : S_.BroadcastsInDim S16x2048x2048 (![] : Fin 0 → Fin S16x2048x2048.rank)
  reducesTo_S16x2048x2048_S_d0_1_2 : S16x2048x2048.ReducesTo [0, 1, 2] S_
  h_S_ : 0 < S_.numel

variable [Facts]

def fn {F : FTy → Type} [FloatOps F] (main_arg0 : FVec F S16x2048x2048 .f32) : IVec S_ 1 :=
  let main_v0 : FVec F S16x2048x2048 .f32 := Host.absf main_arg0
  let main_cst : FVec F S_ .f32 := constant S_ .f32 0x7F800000#32
  let main_v1 : FVec F S16x2048x2048 .f32 := broadcastInDim S16x2048x2048 ![] bcast_S_S16x2048x2048 main_cst
  let main_v2 : IVec S16x2048x2048 1 := cmpf .olt main_v0 main_v1
  let main_c : IVec S_ 1 := constantI S_ 1 1#1
  let main_v3 : IVec S_ 1 := (fun x v => Host.reduce IntOp.andi x v reducesTo_S16x2048x2048_S_d0_1_2 h_S_) main_v2 main_c
  main_v3
-- ==== Kernel.lean ====
abbrev S16x2048x2048 : Shape := ⟨3, ![16, 2048, 2048]⟩
abbrev S1x512x2048 : Shape := ⟨3, ![1, 512, 2048]⟩
abbrev S512x2048 : Shape := ⟨2, ![512, 2048]⟩
abbrev S512 : Shape := ⟨1, ![512]⟩
abbrev S512x1 : Shape := ⟨2, ![512, 1]⟩

abbrev nBuf : Space → Nat
  | .hbm => 2
  | .vmem => 4
  | .smem => 0
  | _ => 0

abbrev bufTy : (tb : Table) → Fin (tcTables nBuf tb) → BufTy
  | .hbm, ⟨0, _⟩ => ⟨S16x2048x2048, .f32⟩
  | .hbm, ⟨1, _⟩ => ⟨S16x2048x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x512x2048 : S512x2048.ShapeCasts S1x512x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S16x2048x2048.size a
  hwx0_0 : ∀ i : grid0.Coords, EltTy.bits .f32 = 32 ∨ (Rect.block (s := S16x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S16x2048x2048.size a
  hwx0_1 : ∀ i : grid0.Coords, EltTy.bits .f32 = 32 ∨ (Rect.block (s := S16x2048x2048) S1x512x2048.size (cc0_transform_1 i) (hinb0_1 i)).WholeWords (EltTy.packing .f32)

variable [Facts₀]

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 12
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S_, .f32⟩
  | .hbm, ⟨2, _⟩ => ⟨S16x2048, .f32⟩
  | .hbm, ⟨3, _⟩ => ⟨S_, .f32⟩
  | .hbm, ⟨4, _⟩ => ⟨S16x2048, .f32⟩
  | .hbm, ⟨5, _⟩ => ⟨S16x2048, .f32⟩
  | .hbm, ⟨6, _⟩ => ⟨S_, .f32⟩
  | .hbm, ⟨7, _⟩ => ⟨S16x2048, .f32⟩
  | .hbm, ⟨8, _⟩ => ⟨S16x2048, .f32⟩
  | .hbm, ⟨9, _⟩ => ⟨S16x2048x1, .f32⟩
  | .hbm, ⟨10, _⟩ => ⟨S16x2048x2048, .f32⟩
  | .hbm, ⟨11, _⟩ => ⟨S16x2048x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)

variable [Facts₀]

class Facts : Prop extends Facts₀ where

variable [Facts]
-- ==== Proof.Spec.lean ====
/-
  Row normalisation of a batch of matrices. Every entry is multiplied by the reciprocal of its row's sum, the sum
  first clamped from below by a small positive constant so that the reciprocal is taken of a positive number:
  out[b, r, d] = x[b, r, d] * (1 / max (sum over k of x[b, r, k]) clamp).
  Both programs compute exactly this expression, with the same three binary32 constants (zero as the sum's start,
  the clamp, one), so the constants are kept as their words and never evaluated.
-/
import Idealize.ShloMosaic.PureOps.Ideal
import Idealize.ShloMosaic.PureOps.Ideal.Laws
import Idealize.ShloMosaic.Lib.ValueIdx

noncomputable section

namespace Cert.RowNorm

open Idealize.ShloMosaic Idealize.ShloMosaic.ValueIdx

/-- The batch's shape: 16 matrices of 2048 rows and 2048 columns. -/
abbrev SArr : Shape := ⟨3, ![16, 2048, 2048]⟩

/-- The lower clamp of a row's sum: the binary32 number nearest 1e-5, as an extended real. -/
abbrev clampE : EReal := Ideal.ofBits .f32 0x3727C5AC#32

/-- The reciprocal's numerator: binary32 one, as an extended real. -/
abbrev oneE : EReal := Ideal.ofBits .f32 0x3F800000#32

/-- The sum of row `r` of matrix `b` over its 2048 columns. -/
def rowSum (x : SArr.Idx → EReal) (b : Fin 16) (r : Fin 2048) : EReal := ∑ k : Fin 2048, x (ix3 b r k)

/-- The reciprocal of a row's clamped sum: the factor every entry of the row is multiplied by. -/
def rowScale (x : SArr.Idx → EReal) (b : Fin 16) (r : Fin 2048) : EReal :=
  Ideal.div oneE (max (rowSum x b r) clampE)

/-- The normalised batch: each entry times its row's factor. -/
def rowNorm (x : SArr.Idx → EReal) : SArr.Idx → EReal := fun i => x i * rowScale x (i 0) (i 1)

theorem rowNorm_apply (x : SArr.Idx → EReal) (b : Fin 16) (r : Fin 2048) (d : Fin 2048) :
    rowNorm x (ix3 b r d) = x (ix3 b r d) * rowScale x b r := rfl

end Cert.RowNorm

end
-- ==== Proof.RefValue.lean ====
/-
  The reference computes the row normalisation of the specification: its sum over the last axis starts from binary32
  zero (which is the extended real 0 and drops out), the clamp and the numerator are broadcast scalars, the quotient
  is the host's division (the same extended-real division as the kernel's), and the two broadcasts that make the
  [16, 2048] array of row factors a [16, 2048, 2048] array read, at (b, r, d), the factor of row (b, r).
-/
import proofs.«157706_j14499809591880_1_alg».proof.Proof.Gen.ReferenceIdeal.Read
import proofs.«157706_j14499809591880_1_alg».proof.Proof.Spec

noncomputable section

open Idealize.ShloMosaic Idealize.ShloMosaic.TcCoe Idealize.SL.Sem Idealize.ShloMosaic.ValueIdx

namespace Cert.RowNorm.Ref

open Cert.ReferenceIdeal Cert.ReferenceIdeal.Gen Cert.ReferenceIdeal.Read

/-- The entry the sum reads for row (b, r) at column k, through the two broadcasts' index maps, is x[b, r, k]. -/
theorem sum_index (b : Fin 16) (r : Fin 2048) (d k : Fin 2048) :
    idx_main_v0 (idx_main_v5 (idx_main_v6 (ix3 b r d))) k = ix3 b r k :=
  funext fun a => Fin.ext (by match a with | ⟨0, _⟩ => rfl | ⟨1, _⟩ => rfl | ⟨2, _⟩ => rfl)

/-- The reference's last stage is the specification's function of the argument. -/
theorem stage_eq (x0 : (⟨S16x2048x2048, .f32⟩ : BufTy).Contents (Elt Ideal)) :
    val_main_v7 (F := Ideal) x0 = Cert.RowNorm.rowNorm x0 := by
  funext i
  obtain ⟨b, r, d, rfl⟩ : ∃ (b : Fin 16) (r : Fin 2048) (d : Fin 2048), i = ix3 b r d := ⟨i 0, i 1, i 2, eq_ix3 i⟩
  rw [val_main_v7_apply, val_main_v6_apply, val_main_v5_apply, val_main_v4_apply, val_main_v3_apply,
    val_main_cst_1_apply, val_main_v2_apply, val_main_v0_apply, val_main_v1_apply, val_main_cst_0_apply,
    val_main_cst_apply, Cert.RowNorm.rowNorm_apply]
  simp only [Ideal.mulf_def, Ideal.hostDivf_def, Ideal.maximumf_def, Ideal.ofBits_def, Ideal.ofBits_zero_f32, zero_add,
    sum_index]
  rfl

end Cert.RowNorm.Ref

end
-- ==== Proof.KernelBlock.lean ====
/-
  What the kernel body leaves in its output block, entry by entry. The block is one matrix's 512 consecutive rows,
  each with all of its 2048 columns, so a row's sum is formed inside the block: the entry at row r, column d is
  the loaded entry times the reciprocal of the clamped sum of row r of the loaded block. Where the loaded block
  holds rows of an array, that is the array's row normalisation at the corresponding entry.
-/
import proofs.«157706_j14499809591880_1_alg».proof.Proof.Gen.KernelIdeal.Value
import proofs.«157706_j14499809591880_1_alg».proof.Proof.Spec
import Idealize.ShloMosaic.PureOps.Ideal.Laws
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.RowNorm.Block

open Cert.KernelIdeal Cert.KernelIdeal.Gen Cert.RowNorm

theorem hz : (![0, 0, 0] : Fin 3 → Nat) = fun _ => 0 := funext fun a => by fin_cases a <;> rfl

/-- The lane sum of the block, seen as 512 rows of 2048, at row r: the sum of the block's row r over its columns. -/
theorem block_rowSum (P0 : FVec Ideal S1x512x2048 .f32) (r : Fin 512) :
    multiReduction .add [1] S512 (shapeCast S512x2048 P0 shapeCasts_S1x512x2048_S512x2048) 0x00000000#32
        reduces_S512x2048_S512 (.inl rfl) rfl (ix1 r)
      = ∑ k : Fin 2048, P0 (ix3 (0 : Fin 1) r k) := by
  refine (Ideal.multiReduction_add_single _ _ reduces_S512x2048_S512 (.inl rfl) rfl (ix1 r)).trans ?_
  refine Finset.sum_congr rfl fun k _ => ?_
  refine shapeCast_apply _ _ _ _ ?_
  rw [Shape.rowMajor_val_three, Shape.rowMajor_val_two]
  show ((0 : Nat) * 512 + r.val) * 2048 + k.val = r.val * 2048 + k.val
  omega

/-- The body's output block at (u, r, d): the loaded entry (0, r, d) times the reciprocal of the clamped sum of the
    loaded block's row r. -/
theorem block_apply (x0 : FVec Ideal S1x512x2048 .f32) (u : Fin 1) (r : Fin 512) (d : Fin 2048) :
    out0_1 (F := Ideal) x0 (ix3 u r d)
      = x0 (ix3 (0 : Fin 1) r d) * Ideal.div oneE (max (∑ k : Fin 2048, x0 (ix3 (0 : Fin 1) r k)) clampE) := by
  have e0 : Cert.KernelIdeal.Value.ix1_0 (ix3 u r d) = ix3 (0 : Fin 1) r d :=
    funext fun a => Fin.ext (by match a with | ⟨0, _⟩ => rfl | ⟨1, _⟩ => rfl | ⟨2, _⟩ => rfl)
  have e1 : Cert.KernelIdeal.Value.ix1_1 (ix3 u r d) = ix1 r :=
    funext fun a => Fin.ext (by match a with | ⟨0, _⟩ => rfl)
  unfold out0_1
  rw [Cert.KernelIdeal.Value.canon1_eq, View.ld_unit_zero (S := S1x512x2048) hz]
  dsimp only [Cert.KernelIdeal.Value.E1]
  rw [e0, e1, block_rowSum x0 r]
  rfl

/-- If the loaded block holds, at (·, r, k), the array's entry (b, q·512 + r, k) — rows q·512 … q·512 + 511 of matrix b —
    then the output block holds the array's row normalisation at the corresponding entries. -/
theorem block_rowNorm (A : SArr.Idx → EReal) (X : FVec Ideal S1x512x2048 .f32) (b q : Nat)
    (hX : ∀ (y : S1x512x2048.Idx) (i : SArr.Idx), (i 0).val = b → (i 1).val = q * 512 + (y 1).val →
      (i 2).val = (y 2).val → X y = A i)
    (y : S1x512x2048.Idx) (i : SArr.Idx) (h0 : (i 0).val = b) (h1 : (i 1).val = q * 512 + (y 1).val)
    (h2 : (i 2).val = (y 2).val) :
    out0_1 (F := Ideal) X y = rowNorm A i := by
  obtain ⟨u, r, d, rfl⟩ : ∃ (u : Fin 1) (r : Fin 512) (d : Fin 2048), y = ix3 u r d := ⟨y 0, y 1, y 2, eq_ix3 y⟩
  obtain ⟨bb, rr, dd, rfl⟩ : ∃ (bb : Fin 16) (rr : Fin 2048) (dd : Fin 2048), i = ix3 bb rr dd := ⟨i 0, i 1, i 2, eq_ix3 i⟩
  rw [block_apply, rowNorm_apply]
  unfold rowScale rowSum
  rw [hX (ix3 (0 : Fin 1) r d) (ix3 bb rr dd) h0 h1 h2]
  refine congrArg (fun s => A (ix3 bb rr dd) * Ideal.div oneE (max s clampE)) ?_
  exact Finset.sum_congr rfl fun k _ => hX (ix3 (0 : Fin 1) r k) (ix3 bb rr k) h0 h1 rfl

end Cert.RowNorm.Block

end
-- ==== Proof.KernelValue.lean ====
/-
  From blocks to the array. The grid has 16 × 4 points; point (b, q) stages rows q·512 … q·512 + 511 of matrix b,
  with all columns, both for the input and for the output. So what a point writes back is the matching block of the
  argument's row normalisation (a row lies whole inside one block), the 64 blocks cover the array — entry (b, r, d)
  lies in the block of point (b, r / 512) — and the result array after the run is the row normalisation of the
  argument array.
-/
import proofs.«157706_j14499809591880_1_alg».proof.Proof.Gen.KernelIdeal.Value
import proofs.«157706_j14499809591880_1_alg».proof.Proof.KernelBlock
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.RowNorm.Kernel

open Cert.KernelIdeal Cert.KernelIdeal.Gen Cert.RowNorm

variable (m : (ℓ : Loc nD τ sig) → Buf (Elt Ideal) ℓ) (ρ : Dev nD → PrngReg)

/-- The two windows' block indices, decided over the 64 points: the input's block moves with the output's, the
    matrix index stays below 16, the row-block index below 4, and the column-block index is 0. -/
theorem idx_facts : ∀ t : Fin cfg0.N,
    win0_0.index t (0 : Fin 3) = win0_1.index t (0 : Fin 3)
    ∧ win0_0.index t (1 : Fin 3) = win0_1.index t (1 : Fin 3)
    ∧ win0_0.index t (2 : Fin 3) = win0_1.index t (2 : Fin 3)
    ∧ win0_1.index t (0 : Fin 3) ≤ 15 ∧ win0_1.index t (1 : Fin 3) ≤ 3 ∧ win0_1.index t (2 : Fin 3) = 0 :=
  (by decide +kernel : ∀ t : Fin grid0.N, _)

/-- Every (matrix, row-block) pair is some point's. -/
theorem idx_onto : ∀ (q0 : Fin 16) (q1 : Fin 4), ∃ t : Fin cfg0.N, win0_1.index t = ![q0.val, q1.val, 0] :=
  (by decide +kernel : ∀ (q0 : Fin 16) (q1 : Fin 4), ∃ t : Fin grid0.N, win0_1.index t = ![q0.val, q1.val, 0])

/-- The input window's block at point t, entry by entry: the argument array at the block's offset. -/
theorem iblk_apply (c : Dev nD) (t : Fin cfg0.N) (y : S1x512x2048.Idx) (i : S16x2048x2048.Idx)
    (h0 : (i 0).val = win0_1.index t (0 : Fin 3)) (h1 : (i 1).val = win0_1.index t (1 : Fin 3) * 512 + (y 1).val)
    (h2 : (i 2).val = (y 2).val) :
    (iblk m c 0 t : FVec Ideal S1x512x2048 .f32) y = (V m c main_arg0 : S16x2048x2048.Idx → EReal) i := by
  obtain ⟨e0, e1, e2, l0, l1, z2⟩ := idx_facts t
  have hy0 : (y 0).val < 1 := (y 0).isLt
  unfold iblk
  rw [View.read_apply]
  show V m c main_arg0 _ = V m c main_arg0 _
  congr 1
  funext a
  apply Fin.ext
  match a with
  | ⟨0, _⟩ => show win0_0.index t (0 : Fin 3) * 1 + 1 * (y 0).val = (i 0).val; omega
  | ⟨1, _⟩ => show win0_0.index t (1 : Fin 3) * 512 + 1 * (y 1).val = (i 1).val; omega
  | ⟨2, _⟩ => show win0_0.index t (2 : Fin 3) * 2048 + 1 * (y 2).val = (i 2).val; omega

/-- What point t writes back is its block of the argument's row normalisation. -/
theorem flushed_eq (c : Dev nD) (t : Fin cfg0.N) :
    (dats m 0 c).flushed 1 t
      = ((cfg0.win 1).blk t).view.read (Elt Ideal) (rowNorm (V m c main_arg0)) := by
  rw [Cert.KernelIdeal.Value.flushed1]
  obtain ⟨e0, e1, e2, l0, l1, z2⟩ := idx_facts t
  funext j
  have hj0 : (j 0).val < 1 := (j 0).isLt
  show out0_1 (iblk m c 0 t) j = rowNorm (V m c main_arg0) (((cfg0.win 1).blk t).view.emb j)
  refine Cert.RowNorm.Block.block_rowNorm (V m c main_arg0) (iblk m c 0 t) (win0_1.index t (0 : Fin 3))
    (win0_1.index t (1 : Fin 3)) (fun y i h0 h1 h2 => iblk_apply m c t y i h0 h1 h2) j _ ?_ ?_ ?_
  · show win0_1.index t (0 : Fin 3) * 1 + 1 * (j 0).val = win0_1.index t (0 : Fin 3); omega
  · show win0_1.index t (1 : Fin 3) * 512 + 1 * (j 1).val = win0_1.index t (1 : Fin 3) * 512 + (j 1).val; omega
  · show win0_1.index t (2 : Fin 3) * 2048 + 1 * (j 2).val = (j 2).val; omega

/-- An index of the array is in point t's block iff each coordinate is in the block's range on its axis. -/
theorem mem_blk (t : Fin cfg0.N) (i : S16x2048x2048.Idx) :
    i ∈ ((cfg0.win 1).blk t).view.set ↔ ∀ a : Fin 3, win0_1.index t a * S1x512x2048.size a ≤ (i a).val
      ∧ (i a).val < win0_1.index t a * S1x512x2048.size a + S1x512x2048.size a := by
  show i ∈ ((View.whole main_v0).slice (win0_1.rect t)).set ↔ _
  rw [View.set_slice_whole, Rect.mem_set_unit]
  exact Iff.rfl

/-- Every entry of the array lies in some point's block: entry (b, r, d) in the block of point (b, r / 512). -/
theorem cover (i : S16x2048x2048.Idx) :
    ∃ t : Fin cfg0.N, (cfg0.win 1).flush t = true ∧ i ∈ ((cfg0.win 1).blk t).view.set := by
  have hi0 : (i 0).val < 16 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have q0 : win0_1.index t (0 : Fin 3) = (i 0).val := congrFun ht 0
  have q1 : win0_1.index t (1 : Fin 3) = (i 1).val / 512 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 512 ≤ (i 1).val ∧ (i 1).val < win0_1.index t (1 : Fin 3) * 512 + 512; omega
  | ⟨2, _⟩ => show win0_1.index t (2 : Fin 3) * 2048 ≤ (i 2).val ∧ (i 2).val < win0_1.index t (2 : Fin 3) * 2048 + 2048; omega

/-- The result array after the run is the row normalisation of the argument array. -/
theorem final (c : Dev nD) :
    (dats m 0 c).arrAt 1 cfg0.N = rowNorm (m ((c : Thread nD τ).loc main_arg0)) :=
  ((dats m 0 c).arrAt_eq_of_cover 1 (rowNorm (V m c main_arg0)) (fun t _ => flushed_eq m c t) cover).trans
    (congrArg rowNorm (V_main_arg0 m c))

/-- The kernel's run, read: the result array at the argument's row normalisation, the argument unchanged. -/
theorem run : θ_run defs (onTc (τ := τ) (main (F := Ideal))) ⟨m, fun _ => 0, ρ⟩ fun r => ∀ c : Dev nD,
      r.2.mem ((c : Thread nD τ).loc main_v0) = rowNorm (m ((c : Thread nD τ).loc main_arg0))
      ∧ r.2.mem ((c : Thread nD τ).loc main_arg0) = m ((c : Thread nD τ).loc main_arg0) :=
  (θ_run defs _ _).mono (fun _ h c => ⟨(h c).1.trans (final m c), (h c).2⟩)
    (Cert.KernelIdeal.Value.run_blocks m ρ)

end Cert.RowNorm.Kernel

end
-- ==== Proof.lean ====
/-
  Row-wise normalisation of a batch of 16 matrices of 2048 × 2048: out[b, r, d] = x[b, r, d] · (1 / max(Σ_k x[b, r, k], c))
  with c the binary32 number nearest 1e-5.

  The kernel walks a 16 × 4 grid; each point stages 512 whole rows of one matrix, sums each row inside the block,
  clamps, takes the reciprocal and scales the block. The reference sums over the last axis of the whole array,
  clamps, takes the reciprocal and broadcasts it back over the columns. Over the extended reals both are the same
  expression, entry by entry: a row lies whole inside one block, so the block's row sum is the array's row sum; the
  reference's sum starts from zero, which drops out; the kernel's and the host's divisions are the same function;
  and the three constants are the same words on both sides. No algebraic law is needed, so the finiteness
  of the input is never used.

  The three frames are the generated ones (the reference's is its generated run with the result dropped). The kernel
  was printed at the ideal instance without any rewrite, so there is nothing to preserve.
-/
import proofs.«157706_j14499809591880_1_alg».proof.Defs
import proofs.«157706_j14499809591880_1_alg».proof.Proof.Gen.Kernel
import proofs.«157706_j14499809591880_1_alg».proof.Proof.Gen.Kernel.Skeleton
import proofs.«157706_j14499809591880_1_alg».proof.Proof.Gen.Kernel.Launch
import proofs.«157706_j14499809591880_1_alg».proof.Proof.Gen.Kernel.Points
import proofs.«157706_j14499809591880_1_alg».proof.Proof.Gen.Kernel.Frame
import proofs.«157706_j14499809591880_1_alg».proof.Proof.Gen.KernelIdeal
import proofs.«157706_j14499809591880_1_alg».proof.Proof.Gen.KernelIdeal.Skeleton
import proofs.«157706_j14499809591880_1_alg».proof.Proof.Gen.KernelIdeal.Launch
import proofs.«157706_j14499809591880_1_alg».proof.Proof.Gen.KernelIdeal.Points
import proofs.«157706_j14499809591880_1_alg».proof.Proof.Gen.KernelIdeal.Frame
import proofs.«157706_j14499809591880_1_alg».proof.Proof.Gen.ReferenceIdeal
import proofs.«157706_j14499809591880_1_alg».proof.Proof.Gen.Pre_finite_inputs
import proofs.«157706_j14499809591880_1_alg».proof.Proof.Gen.KernelIdeal.Value
import proofs.«157706_j14499809591880_1_alg».proof.Proof.Gen.ReferenceIdeal.Run
import proofs.«157706_j14499809591880_1_alg».proof.Proof.Gen.ReferenceIdeal.Read
import proofs.«157706_j14499809591880_1_alg».proof.Proof.RefValue
import proofs.«157706_j14499809591880_1_alg».proof.Proof.KernelValue
import Idealize.ShloMosaic.Adequacy
import Idealize.ShloMosaic.Init

noncomputable section

namespace Cert.Proof

open Idealize.ShloMosaic Idealize.SL.Sem Cert.Kernel

/-- The word-level kernel runs and leaves its argument unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its argument unchanged: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the row normalisation of the (shared) argument array in their result. -/
theorem algebraic : Cert.algebraic_KernelIdeal_ReferenceIdeal := by
  intro m ρ m' ρ' _ hagree
  refine ⟨fun c => Cert.RowNorm.rowNorm (m ((c.tc : Thread Cert.KernelIdeal.nD Cert.KernelIdeal.τ).loc Cert.KernelIdeal.main_arg0)),
    Cert.RowNorm.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.RowNorm.Ref.stage_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
